-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2816x2048 : Shape := ⟨3, ![8, 2816, 2048]⟩
abbrev S8x2048x1408 : Shape := ⟨3, ![8, 2048, 1408]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2816x2048 : S_.BroadcastsInDim S8x2816x2048 (![] : Fin 0 → Fin S8x2816x2048.rank)
  reducesTo_S8x2816x2048_S_d0_1_2 : S8x2816x2048.ReducesTo [0, 1, 2] S_
  bcast_S_S8x2048x1408 : S_.BroadcastsInDim S8x2048x1408 (![] : Fin 0 → Fin S8x2048x1408.rank)
  reducesTo_S8x2048x1408_S_d0_1_2 : S8x2048x1408.ReducesTo [0, 1, 2] S_

variable [Facts]

def fn {F : FTy → Type} [FloatOps F] (main_arg0 : FVec F S16384x2048 .f32) (main_arg1 : FVec F S8x2816x2048 .f32) (main_arg2 : FVec F S8x2048x1408 .f32) (main_arg3 : IVec S8 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2816x2048 .f32 := Host.absf main_arg1
  let main_cst_0 : FVec F S_ .f32 := constant S_ .f32 0x7F800000#32
  let main_v5 : FVec F S8x2816x2048 .f32 := broadcastInDim S8x2816x2048 ![] bcast_S_S8x2816x2048 main_cst_0
  let main_v6 : IVec S8x2816x2048 1 := cmpf .olt main_v4 main_v5
  let main_c_1 : IVec S_ 1 := constantI S_ 1 1#1
  let main_v7 : IVec S_ 1 := (fun x v => Host.reduce IntOp.andi x v reducesTo_S8x2816x2048_S_d0_1_2 h_S_) main_v6 main_c_1
  let main_v8 : IVec S_ 1 := andi main_v3 main_v7
  let main_v9 : FVec F S8x2048x1408 .f32 := Host.absf main_arg2
  let main_cst_2 : FVec F S_ .f32 := constant S_ .f32 0x7F800000#32
  let main_v10 : FVec F S8x2048x1408 .f32 := broadcastInDim S8x2048x1408 ![] bcast_S_S8x2048x1408 main_cst_2
  let main_v11 : IVec S8x2048x1408 1 := cmpf .olt main_v9 main_v10
  let main_c_3 : IVec S_ 1 := constantI S_ 1 1#1
  let main_v12 : IVec S_ 1 := (fun x v => Host.reduce IntOp.andi x v reducesTo_S8x2048x1408_S_d0_1_2 h_S_) main_v11 main_c_3
  let main_v13 : IVec S_ 1 := andi main_v8 main_v12
  main_v13
-- ==== Kernel.lean ====
abbrev S16384x2048 : Shape := ⟨2, ![16384, 2048]⟩
abbrev S8x2816x2048 : Shape := ⟨3, ![8, 2816, 2048]⟩
abbrev S8x2048x1408 : Shape := ⟨3, ![8, 2048, 1408]⟩
abbrev S8 : Shape := ⟨1, ![8]⟩
abbrev S128x2048 : Shape := ⟨2, ![128, 2048]⟩
abbrev S1x2816x2048 : Shape := ⟨3, ![1, 2816, 2048]⟩
abbrev S1x2048x1408 : Shape := ⟨3, ![1, 2048, 1408]⟩
abbrev S2816x2048 : Shape := ⟨2, ![2816, 2048]⟩
abbrev S128x2816 : Shape := ⟨2, ![128, 2816]⟩
abbrev S128x1408 : Shape := ⟨2, ![128, 1408]⟩
abbrev S2048x1408 : Shape := ⟨2, ![2048, 1408]⟩

abbrev nBuf : Space → Nat
  | .hbm => 8
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S8x2816x2048, .f32⟩
  | .hbm, ⟨2, _⟩ => ⟨S8x2048x1408, .f32⟩
  | .hbm, ⟨3, _⟩ => ⟨S8, .i32⟩
  | .hbm, ⟨4, _⟩ => ⟨S16384x2048, .bf16⟩
  | .hbm, ⟨5, _⟩ => ⟨S8x2816x2048, .bf16⟩
  | .hbm, ⟨6, _⟩ => ⟨S8x2048x1408, .bf16⟩
  | .hbm, ⟨7, _⟩ => ⟨S16384x2048, .f32⟩
  | .local _ .vmem, ⟨0, _⟩ => ⟨S128x2048, .bf16⟩
  | .local _ .vmem, ⟨1, _⟩ => ⟨S128x2048, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S128x2048, .f32⟩
  | .local _ .vmem, ⟨7, _⟩ => ⟨S128x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2816x2048_S1x2816x2048_0_0_0 : ∀ a, (![0, 0, 0] : Fin 3 → Nat) a + S1x2816x2048.size a ≤ S1x2816x2048.size a
  h_S1x2816x2048 : 0 < S1x2816x2048.numel
  shapeCasts_S1x2816x2048_S2816x2048 : S1x2816x2048.ShapeCasts S2816x2048
  slices_S128x2816_o0_0_S128x1408 : S128x2816.Slices ![0, 0] S128x1408
  slices_S128x2816_o0_1408_S128x1408 : S128x2816.Slices ![0, 1408] S128x1408
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  dot_S128x2048_S2816x2048_S128x2816_1_1_0_0_n_n_wf : DotDims.WF S128x2048 S2816x2048 S128x2816 [1] [1] [0] [0] [] []
  dot_S128x1408_S2048x1408_S128x2048_1_1_0_0_n_n_wf : DotDims.WF S128x1408 S2048x1408 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .bf16 = 32 ∨ (Rect.block (s := S16384x2048) S128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2816x2048.size a ≤ S8x2816x2048.size a
  hwx0_1 : ∀ i : grid0.Coords, EltTy.bits .bf16 = 32 ∨ (Rect.block (s := S8x2816x2048) S1x2816x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1408.size a ≤ S8x2048x1408.size a
  hwx0_2 : ∀ i : grid0.Coords, EltTy.bits .bf16 = 32 ∨ (Rect.block (s := S8x2048x1408) S1x2048x1408.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S16384x2048.size a
  hwx0_3 : ∀ i : grid0.Coords, EltTy.bits .f32 = 32 ∨ (Rect.block (s := S16384x2048) S128x2048.size (cc0_transform_3 i) (hinb0_3 i)).WholeWords (EltTy.packing .f32)

variable [Facts₀]

def dot_S128x2048_S2816x2048_S128x2816_1_1_0_0_n_n : DotDims S128x2048 S2816x2048 S128x2816 where
  lhsContracting := [1]
  rhsContracting := [1]
  lhsNonContracting := [0]
  rhsNonContracting := [0]
  lhsBatch := []
  rhsBatch := []
  wf := dot_S128x2048_S2816x2048_S128x2816_1_1_0_0_n_n_wf
def dot_S128x1408_S2048x1408_S128x2048_1_1_0_0_n_n : DotDims S128x1408 S2048x1408 S128x2048 where
  lhsContracting := [1]
  rhsContracting := [1]
  lhsNonContracting := [0]
  rhsNonContracting := [0]
  lhsBatch := []
  rhsBatch := []
  wf := dot_S128x1408_S2048x1408_S128x2048_1_1_0_0_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2816x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S8x2816x2048 : Shape := ⟨3, ![8, 2816, 2048]⟩
abbrev S8x2048x1408 : Shape := ⟨3, ![8, 2048, 1408]⟩
abbrev S8 : Shape := ⟨1, ![8]⟩
abbrev S8x2048x2048 : Shape := ⟨3, ![8, 2048, 2048]⟩
abbrev S8x2048x2816 : Shape := ⟨3, ![8, 2048, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2816x2048, .f32⟩
  | .hbm, ⟨2, _⟩ => ⟨S8x2048x1408, .f32⟩
  | .hbm, ⟨3, _⟩ => ⟨S8, .i32⟩
  | .hbm, ⟨4, _⟩ => ⟨S8x2048x2048, .f32⟩
  | .hbm, ⟨5, _⟩ => ⟨S8x2048x2816, .f32⟩
  | .hbm, ⟨6, _⟩ => ⟨S8x2048x1408, .f32⟩
  | .hbm, ⟨7, _⟩ => ⟨S8x2048x1408, .f32⟩
  | .hbm, ⟨8, _⟩ => ⟨S8x2048x1408, .f32⟩
  | .hbm, ⟨9, _⟩ => ⟨S8x2048x1408, .f32⟩
  | .hbm, ⟨10, _⟩ => ⟨S_, .f32⟩
  | .hbm, ⟨11, _⟩ => ⟨S8x2048x1408, .f32⟩
  | .hbm, ⟨12, _⟩ => ⟨S8x2048x1408, .f32⟩
  | .hbm, ⟨13, _⟩ => ⟨S_, .f32⟩
  | .hbm, ⟨14, _⟩ => ⟨S8x2048x1408, .f32⟩
  | .hbm, ⟨15, _⟩ => ⟨S8x2048x1408, .f32⟩
  | .hbm, ⟨16, _⟩ => ⟨S8x2048x1408, .f32⟩
  | .hbm, ⟨17, _⟩ => ⟨S8x2048x1408, .f32⟩
  | .hbm, ⟨18, _⟩ => ⟨S8x2048x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S16384x2048_S8x2048x2048 : S16384x2048.ShapeCasts S8x2048x2048
  slices_S8x2048x2816_S8x2048x1408_0_0_0 : S8x2048x2816.Slices ![0, 0, 0] S8x2048x1408
  slices_S8x2048x2816_S8x2048x1408_0_0_1408 : S8x2048x2816.Slices ![0, 0, 1408] S8x2048x1408
  bcast_S_S8x2048x1408 : S_.BroadcastsInDim S8x2048x1408 (![] : Fin 0 → Fin S8x2048x1408.rank)
  shapeCasts_S8x2048x2048_S16384x2048 : S8x2048x2048.ShapeCasts S16384x2048
  dot_S8x2048x2048_S8x2816x2048_S8x2048x2816_2_2_1_1_0_0_wf : DotDims.WF S8x2048x2048 S8x2816x2048 S8x2048x2816 [2] [2] [1] [1] [0] [0]
  dot_S8x2048x1408_S8x2048x1408_S8x2048x2048_2_2_1_1_0_0_wf : DotDims.WF S8x2048x1408 S8x2048x1408 S8x2048x2048 [2] [2] [1] [1] [0] [0]

variable [Facts₀]

def dot_S8x2048x2048_S8x2816x2048_S8x2048x2816_2_2_1_1_0_0 : DotDims S8x2048x2048 S8x2816x2048 S8x2048x2816 where
  lhsContracting := [2]
  rhsContracting := [2]
  lhsNonContracting := [1]
  rhsNonContracting := [1]
  lhsBatch := [0]
  rhsBatch := [0]
  wf := dot_S8x2048x2048_S8x2816x2048_S8x2048x2816_2_2_1_1_0_0_wf
def dot_S8x2048x1408_S8x2048x1408_S8x2048x2048_2_2_1_1_0_0 : DotDims S8x2048x1408 S8x2048x1408 S8x2048x2048 where
  lhsContracting := [2]
  rhsContracting := [2]
  lhsNonContracting := [1]
  rhsNonContracting := [1]
  lhsBatch := [0]
  rhsBatch := [0]
  wf := dot_S8x2048x1408_S8x2048x1408_S8x2048x2048_2_2_1_1_0_0_wf

class Facts : Prop extends Facts₀ where

variable [Facts]
-- ==== Proof.GatedFfn.lean ====
/-
  The function both programs compute, stated once over the three float arguments.

  The 16384 rows are tokens, in eight consecutive groups of 2048; group `e = r / 2048` of row `r` has its own
  pair of weight matrices. For a row `r` and a hidden column `j < 2816` put

      u(r, j) = Σ_k x(r, k) · w13(e, j, k)                          (k < 2048),

  the first 1408 columns being the gate and the last 1408 the linear branch. The gated value is

      a(r, h) = u(r, h) · σ(u(r, h)) · u(r, 1408 + h)               (h < 1408),

  with σ the logistic function, σ(u) = 1 / (1 + e^(-u)), and the result is

      out(r, d) = Σ_h a(r, h) · w2(e, d, h)                         (d < 2048).

  Every sum and product is that of the extended reals in the order written; the only identity that joins the two
  programs is σ's own definition, which holds at every extended real, so no finiteness of the inputs is used.
-/
import Idealize.ShloMosaic.PureOps.Ideal
import Idealize.ShloMosaic.PureOps.IdealRules
import Idealize.ShloMosaic.Lib.ValueIdx

noncomputable section

namespace Cert.GatedFfn

open Idealize.ShloMosaic Idealize.ShloMosaic.ValueIdx

/-- The group a token row belongs to: rows `2048·e … 2048·e + 2047` form group `e`. -/
def group (r : Fin 16384) : Fin 8 := ⟨r.val / 2048, by have := r.isLt; omega⟩

/-- Hidden column `h` of the gate half. -/
def gateCol (h : Fin 1408) : Fin 2816 := ⟨h.val, by have := h.isLt; omega⟩

/-- Hidden column `h` of the linear half, 1408 columns further on. -/
def upCol (h : Fin 1408) : Fin 2816 := ⟨1408 + h.val, by have := h.isLt; omega⟩

/-- `u(r, j)`: row `r` of `x` against row `j` of its group's first weight matrix. -/
def hidden (X : (⟨2, ![16384, 2048]⟩ : Shape).Idx → EReal) (W13 : (⟨3, ![8, 2816, 2048]⟩ : Shape).Idx → EReal)
    (r : Fin 16384) (j : Fin 2816) : EReal :=
  ∑ k : Fin 2048, X (ix2 r k) * W13 (ix3 (group r) j k)

/-- `a(r, h) = u · σ(u) · u'`, `u` the gate column and `u'` the linear column of hidden unit `h`. -/
def gated (X : (⟨2, ![16384, 2048]⟩ : Shape).Idx → EReal) (W13 : (⟨3, ![8, 2816, 2048]⟩ : Shape).Idx → EReal)
    (r : Fin 16384) (h : Fin 1408) : EReal :=
  hidden X W13 r (gateCol h) * Ideal.logistic (hidden X W13 r (gateCol h)) * hidden X W13 r (upCol h)

/-- `out(r, d)`: the gated row against row `d` of the group's second weight matrix. -/
def out (X : (⟨2, ![16384, 2048]⟩ : Shape).Idx → EReal) (W13 : (⟨3, ![8, 2816, 2048]⟩ : Shape).Idx → EReal)
    (W2 : (⟨3, ![8, 2048, 1408]⟩ : Shape).Idx → EReal) : (⟨2, ![16384, 2048]⟩ : Shape).Idx → EReal :=
  fun i => ∑ h : Fin 1408, gated X W13 (i 0) h * W2 (ix3 (group (i 0)) (i 1) h)

/-- The f32 word of `1.0` is the extended real `1`. -/
theorem one_word : Ideal.ofBits .f32 0x3F800000#32 = 1 := IdealRules.sign_bit.ideal_onePat .f32

/-- σ spelt with a quotient, an exponential and a negation, as a host program writes it, is σ: its definition. -/
theorem logistic_spelt (u : EReal) : Ideal.div 1 (1 + Ideal.exp (-u)) = Ideal.logistic u := rfl

end Cert.GatedFfn

end
-- ==== Proof.RefOut.lean ====
/-
  The reference program computes `GatedFfn.out`.

  The reference regroups the 16384 rows as [8, 2048] (group, row in group), takes for each group the products with
  that group's first weight matrix, cuts the 2816 hidden columns into the gate half and the linear half, applies
  `u ↦ u · (1 / (1 + e^(-u)))` to the gate half, multiplies by the linear half, takes the products with the group's
  second weight matrix, and flattens [8, 2048] back to 16384 rows. Row `r` of the flat arrays is (r / 2048, r % 2048)
  of the grouped ones, so each stage read at an index is the corresponding stage of `GatedFfn` at row `r`; the
  quotient spelling of the logistic function is its definition.
-/
import proofs.«109220_j30537217475283_1_alg».proof.Proof.Gen.ReferenceIdeal.Read
import proofs.«109220_j30537217475283_1_alg».proof.Proof.GatedFfn

noncomputable section

namespace Cert.ReferenceIdeal.RefValue

open Cert.ReferenceIdeal Cert.ReferenceIdeal.Read Idealize.ShloMosaic Idealize.ShloMosaic.ValueIdx

/-- The first product at (group, row in group, column) is `u(r, column)` for the flat row `r = 2048·group + row`. -/
theorem hidden_eq (x0 : (⟨S16384x2048, .f32⟩ : BufTy).Contents (Elt Ideal)) (x1 : (⟨S8x2816x2048, .f32⟩ : BufTy).Contents (Elt Ideal))
    (j : S8x2048x2816.Idx) (r : Fin 16384) (col : Fin 2816)
    (hr : r.val = (j 0).val * 2048 + (j 1).val) (hc : col.val = (j 2).val) :
    val_main_v1 (F := Ideal) x0 x1 j = Cert.GatedFfn.hidden x0 x1 r col := by
  rw [val_main_v1_apply]
  unfold Cert.GatedFfn.hidden
  refine Finset.sum_congr rfl fun k _ => ?_
  rw [val_main_v0_apply]
  have h1 : (j 1).val < 2048 := (j 1).isLt
  have hk : k.val < 2048 := k.isLt
  have e1 : idx_main_v0 (lidx_main_v1 j k) = ix2 r k := funext fun a => Fin.ext (by
    match a with
    | ⟨0, _⟩ => show (((j 0).val * 2048 + (j 1).val) * 2048 + k.val) / 2048 = r.val; omega
    | ⟨1, _⟩ => show (((j 0).val * 2048 + (j 1).val) * 2048 + k.val) % 2048 = k.val; omega)
  have e2 : ridx_main_v1 j k = ix3 (Cert.GatedFfn.group r) col k := funext fun a => Fin.ext (by
    match a with
    | ⟨0, _⟩ => show (j 0).val = r.val / 2048; omega
    | ⟨1, _⟩ => show (j 2).val = col.val; omega
    | ⟨2, _⟩ => rfl)
  rw [e1, e2]

/-- The gated stage at (group, row in group, hidden unit) is `a(r, hidden unit)`: the gate column is the unit's own
    number, the linear column 1408 further; `u · (1 / (1 + e^(-u)))` is `u · σ(u)` by σ's definition, the word of
    `1.0` being `1`. -/
theorem gated_eq (x0 : (⟨S16384x2048, .f32⟩ : BufTy).Contents (Elt Ideal)) (x1 : (⟨S8x2816x2048, .f32⟩ : BufTy).Contents (Elt Ideal))
    (j : S8x2048x1408.Idx) (r : Fin 16384) (h : Fin 1408)
    (hr : r.val = (j 0).val * 2048 + (j 1).val) (hh : h.val = (j 2).val) :
    val_main_v5 (F := Ideal) x0 x1 j = Cert.GatedFfn.gated x0 x1 r h := by
  rw [val_main_v5_apply, val_main_v4_apply, val_main_v3_apply, val_main_call0_v5_apply, val_main_call0_v4_apply,
    val_main_call0_cst_0_apply, val_main_call0_v3_apply, val_main_call0_v2_apply, val_main_call0_cst_apply,
    val_main_call0_v1_apply, val_main_call0_v0_apply, val_main_v2_apply,
    hidden_eq x0 x1 (idx_main_v2 j) r (Cert.GatedFfn.gateCol h) hr hh,
    hidden_eq x0 x1 (idx_main_v3 j) r (Cert.GatedFfn.upCol h) hr (by show 1408 + h.val = 1408 + (j 2).val; omega)]
  unfold Cert.GatedFfn.gated
  simp only [Ideal.mulf_def, Ideal.hostDivf_def, Ideal.addf_def, Ideal.hostUnary_exp_def, Ideal.hostNegf_def, Ideal.negf_def,
    Ideal.ofBits_def, Cert.GatedFfn.one_word, Cert.GatedFfn.logistic_spelt]

/-- The reference's result array is `GatedFfn.out` of the arguments: flat row `r` is row `r % 2048` of group
    `r / 2048`. -/
theorem result_eq (x0 : (⟨S16384x2048, .f32⟩ : BufTy).Contents (Elt Ideal)) (x1 : (⟨S8x2816x2048, .f32⟩ : BufTy).Contents (Elt Ideal))
    (x2 : (⟨S8x2048x1408, .f32⟩ : BufTy).Contents (Elt Ideal)) :
    val_main_v7 (F := Ideal) x0 x1 x2 = Cert.GatedFfn.out x0 x1 x2 := by
  funext i
  rw [val_main_v7_apply, val_main_v6_apply]
  unfold Cert.GatedFfn.out
  have h0 : (i 0).val < 16384 := (i 0).isLt
  have h1 : (i 1).val < 2048 := (i 1).isLt
  refine Finset.sum_congr rfl fun h _ => ?_
  rw [gated_eq x0 x1 (lidx_main_v6 (idx_main_v7 i) h) (i 0) h
    (by show (i 0).val = ((i 0).val * 2048 + (i 1).val) / 4194304 * 2048 + ((i 0).val * 2048 + (i 1).val) / 2048 % 2048; omega) rfl]
  have e : ridx_main_v6 (idx_main_v7 i) h = ix3 (Cert.GatedFfn.group (i 0)) (i 1) h := funext fun a => Fin.ext (by
    match a with
    | ⟨0, _⟩ => show ((i 0).val * 2048 + (i 1).val) / 4194304 = (i 0).val / 2048; omega
    | ⟨1, _⟩ => show ((i 0).val * 2048 + (i 1).val) % 2048 = (i 1).val; omega
    | ⟨2, _⟩ => rfl)
  rw [e]
  rfl

end Cert.ReferenceIdeal.RefValue

end
-- ==== Proof.Tile.lean ====
/-
  One tile of the kernel, read at an index.

  At a grid point the body holds a tile `a` of 128 token rows, [128, 2048], and the two weight matrices of the
  tile's group with a leading unit axis, `b` = [1, 2816, 2048] and `c` = [1, 2048, 1408]. It forms the products of the
  rows of `a` with the rows of `b` (both operands contracted along their second axis), splits the 2816 columns of
  the result at 1408, multiplies the first half by its own logistic value and by the second half, and forms the
  products of that with the rows of `c`. At the extended reals the two changes of float format are the identity,
  a product into the zero accumulator is the plain sum over the contracted coordinate, a slice reads its operand an
  offset further on, and dropping a leading unit axis reads the operand at coordinate 0 of that axis. So entry
  (p, q) of the tile's result is

      Σ_h  u(p, h) · σ(u(p, h)) · u(p, 1408 + h) · c(0, q, h),      u(p, j) = Σ_k a(p, k) · b(0, j, k).
-/
import proofs.«109220_j30537217475283_1_alg».proof.Proof.Gen.KernelIdeal.Skeleton
import proofs.«109220_j30537217475283_1_alg».proof.Proof.GatedFfn
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## The operand indices of the two products

Both products contract axis 1 of each operand and keep axis 0 of each: output index (p, j) with contraction
coordinate k reads the left operand at (p, k) and the right operand at (j, k). -/

theorem lhs_first_0 (i : S128x2816.Idx) (q : dot_S128x2048_S2816x2048_S128x2816_1_1_0_0_n_n.contr.Idx) :
    (dot_S128x2048_S2816x2048_S128x2816_1_1_0_0_n_n.lhsIdx i q 0).val = (i 0).val := by
  unfold DotDims.lhsIdx
  rw [dif_neg (show ¬(0 : Fin S128x2048.rank) ∈ dot_S128x2048_S2816x2048_S128x2816_1_1_0_0_n_n.lhsBatch by decide), dif_pos (show (0 : Fin S128x2048.rank) ∈ dot_S128x2048_S2816x2048_S128x2816_1_1_0_0_n_n.lhsNonContracting by decide)]
  rfl
theorem lhs_first_1 (i : S128x2816.Idx) (q : dot_S128x2048_S2816x2048_S128x2816_1_1_0_0_n_n.contr.Idx) :
    (dot_S128x2048_S2816x2048_S128x2816_1_1_0_0_n_n.lhsIdx i q 1).val = (q ⟨0, by decide⟩).val :=
  dot_S128x2048_S2816x2048_S128x2816_1_1_0_0_n_n.lhsIdx_val_of_single rfl i q
theorem rhs_first_0 (i : S128x2816.Idx) (q : dot_S128x2048_S2816x2048_S128x2816_1_1_0_0_n_n.contr.Idx) :
    (dot_S128x2048_S2816x2048_S128x2816_1_1_0_0_n_n.rhsIdx i q 0).val = (i 1).val := by
  unfold DotDims.rhsIdx
  rw [dif_neg (show ¬(0 : Fin S2816x2048.rank) ∈ dot_S128x2048_S2816x2048_S128x2816_1_1_0_0_n_n.rhsBatch by decide), dif_pos (show (0 : Fin S2816x2048.rank) ∈ dot_S128x2048_S2816x2048_S128x2816_1_1_0_0_n_n.rhsNonContracting by decide)]
  rfl
theorem rhs_first_1 (i : S128x2816.Idx) (q : dot_S128x2048_S2816x2048_S128x2816_1_1_0_0_n_n.contr.Idx) :
    (dot_S128x2048_S2816x2048_S128x2816_1_1_0_0_n_n.rhsIdx i q 1).val = (q ⟨0, by decide⟩).val :=
  dot_S128x2048_S2816x2048_S128x2816_1_1_0_0_n_n.rhsIdx_val_of_single rfl i q

theorem lhs_second_0 (i : S128x2048.Idx) (q : dot_S128x1408_S2048x1408_S128x2048_1_1_0_0_n_n.contr.Idx) :
    (dot_S128x1408_S2048x1408_S128x2048_1_1_0_0_n_n.lhsIdx i q 0).val = (i 0).val := by
  unfold DotDims.lhsIdx
  rw [dif_neg (show ¬(0 : Fin S128x1408.rank) ∈ dot_S128x1408_S2048x1408_S128x2048_1_1_0_0_n_n.lhsBatch by decide), dif_pos (show (0 : Fin S128x1408.rank) ∈ dot_S128x1408_S2048x1408_S128x2048_1_1_0_0_n_n.lhsNonContracting by decide)]
  rfl
theorem lhs_second_1 (i : S128x2048.Idx) (q : dot_S128x1408_S2048x1408_S128x2048_1_1_0_0_n_n.contr.Idx) :
    (dot_S128x1408_S2048x1408_S128x2048_1_1_0_0_n_n.lhsIdx i q 1).val = (q ⟨0, by decide⟩).val :=
  dot_S128x1408_S2048x1408_S128x2048_1_1_0_0_n_n.lhsIdx_val_of_single rfl i q
theorem rhs_second_0 (i : S128x2048.Idx) (q : dot_S128x1408_S2048x1408_S128x2048_1_1_0_0_n_n.contr.Idx) :
    (dot_S128x1408_S2048x1408_S128x2048_1_1_0_0_n_n.rhsIdx i q 0).val = (i 1).val := by
  unfold DotDims.rhsIdx
  rw [dif_neg (show ¬(0 : Fin S2048x1408.rank) ∈ dot_S128x1408_S2048x1408_S128x2048_1_1_0_0_n_n.rhsBatch by decide), dif_pos (show (0 : Fin S2048x1408.rank) ∈ dot_S128x1408_S2048x1408_S128x2048_1_1_0_0_n_n.rhsNonContracting by decide)]
  rfl
theorem rhs_second_1 (i : S128x2048.Idx) (q : dot_S128x1408_S2048x1408_S128x2048_1_1_0_0_n_n.contr.Idx) :
    (dot_S128x1408_S2048x1408_S128x2048_1_1_0_0_n_n.rhsIdx i q 1).val = (q ⟨0, by decide⟩).val :=
  dot_S128x1408_S2048x1408_S128x2048_1_1_0_0_n_n.rhsIdx_val_of_single rfl i q

/-! ## The two products as plain sums -/

/-- The first product at (p, j): row `p` of the left operand against row `j` of the right one. -/
theorem first_product (a : FVec Ideal S128x2048 .bf16) (b : FVec Ideal S2816x2048 .bf16) (p : Fin 128) (j : Fin 2816) :
    matmul dot_S128x2048_S2816x2048_S128x2816_1_1_0_0_n_n none a b (constant S128x2816 .f32 0x00000000#32) (ix2 p j)
      = ∑ k : Fin 2048, a (ix2 p k) * b (ix2 j k) := by
  simp only [matmul]
  rw [Ideal.matmul_constant_zero_apply, ← Equiv.sum_comp (contrEquiv1 dot_S128x2048_S2816x2048_S128x2816_1_1_0_0_n_n 2048 rfl rfl).symm]
  refine Finset.sum_congr rfl fun k _ => ?_
  have hk := contrEquiv1_symm_val dot_S128x2048_S2816x2048_S128x2816_1_1_0_0_n_n 2048 rfl rfl k
  have el : dot_S128x2048_S2816x2048_S128x2816_1_1_0_0_n_n.lhsIdx (ix2 p j) ((contrEquiv1 dot_S128x2048_S2816x2048_S128x2816_1_1_0_0_n_n 2048 rfl rfl).symm k) = ix2 p k := funext fun a => Fin.ext (by
    match a with
    | ⟨0, _⟩ => exact lhs_first_0 _ _
    | ⟨1, _⟩ => exact (lhs_first_1 _ _).trans hk)
  have er : dot_S128x2048_S2816x2048_S128x2816_1_1_0_0_n_n.rhsIdx (ix2 p j) ((contrEquiv1 dot_S128x2048_S2816x2048_S128x2816_1_1_0_0_n_n 2048 rfl rfl).symm k) = ix2 j k := funext fun a => Fin.ext (by
    match a with
    | ⟨0, _⟩ => exact rhs_first_0 _ _
    | ⟨1, _⟩ => exact (rhs_first_1 _ _).trans hk)
  rw [el, er]

/-- The second product at (p, q): row `p` of the left operand against row `q` of the right one. -/
theorem second_product (a : FVec Ideal S128x1408 .bf16) (b : FVec Ideal S2048x1408 .bf16) (p : Fin 128) (j : Fin 2048) :
    matmul dot_S128x1408_S2048x1408_S128x2048_1_1_0_0_n_n none a b (constant S128x2048 .f32 0x00000000#32) (ix2 p j)
      = ∑ k : Fin 1408, a (ix2 p k) * b (ix2 j k) := by
  simp only [matmul]
  rw [Ideal.matmul_constant_zero_apply, ← Equiv.sum_comp (contrEquiv1 dot_S128x1408_S2048x1408_S128x2048_1_1_0_0_n_n 1408 rfl rfl).symm]
  refine Finset.sum_congr rfl fun k _ => ?_
  have hk := contrEquiv1_symm_val dot_S128x1408_S2048x1408_S128x2048_1_1_0_0_n_n 1408 rfl rfl k
  have el : dot_S128x1408_S2048x1408_S128x2048_1_1_0_0_n_n.lhsIdx (ix2 p j) ((contrEquiv1 dot_S128x1408_S2048x1408_S128x2048_1_1_0_0_n_n 1408 rfl rfl).symm k) = ix2 p k := funext fun a => Fin.ext (by
    match a with
    | ⟨0, _⟩ => exact lhs_second_0 _ _
    | ⟨1, _⟩ => exact (lhs_second_1 _ _).trans hk)
  have er : dot_S128x1408_S2048x1408_S128x2048_1_1_0_0_n_n.rhsIdx (ix2 p j) ((contrEquiv1 dot_S128x1408_S2048x1408_S128x2048_1_1_0_0_n_n 1408 rfl rfl).symm k) = ix2 j k := funext fun a => Fin.ext (by
    match a with
    | ⟨0, _⟩ => exact rhs_second_0 _ _
    | ⟨1, _⟩ => exact (rhs_second_1 _ _).trans hk)
  rw [el, er]

/-! ## The layout operations -/

/-- The first weight block without its unit axis, at (j, k), is the block at (0, j, k). -/
theorem first_weights_apply (b : Vec Ideal S1x2816x2048 .bf16) (j : Fin 2816) (k : Fin 2048) :
    shapeCast S2816x2048 b shapeCasts_S1x2816x2048_S2816x2048 (ix2 j k) = b (ix3 0 j k) :=
  shapeCast_apply b shapeCasts_S1x2816x2048_S2816x2048 (ix2 j k) (ix3 0 j k) (by
    rewrite [Shape.rowMajor_val_three, Shape.rowMajor_val_two]
    show ((0 : Fin 1).val * 2816 + j.val) * 2048 + k.val = j.val * 2048 + k.val
    simp)

/-- The second weight block without its unit axis, at (q, h), is the block at (0, q, h). -/
theorem second_weights_apply (c : Vec Ideal S1x2048x1408 .bf16) (q : Fin 2048) (h : Fin 1408) :
    shapeCast S2048x1408 c shapeCasts_S1x2048x1408_S2048x1408 (ix2 q h) = c (ix3 0 q h) :=
  shapeCast_apply c shapeCasts_S1x2048x1408_S2048x1408 (ix2 q h) (ix3 0 q h) (by
    rewrite [Shape.rowMajor_val_three, Shape.rowMajor_val_two]
    show ((0 : Fin 1).val * 2048 + q.val) * 1408 + h.val = q.val * 1408 + h.val
    simp)

/-- The gate half of the hidden columns: column `h` of the slice is column `h` of the whole. -/
theorem gate_half_apply (v : FVec Ideal S128x2816 .f32) (p : Fin 128) (h : Fin 1408) :
    extractStridedSlice S128x1408 ![0, 0] v slices_S128x2816_o0_0_S128x1408 (ix2 p h) = v (ix2 p (Cert.GatedFfn.gateCol h)) :=
  extractStridedSlice_apply ![0, 0] v slices_S128x2816_o0_0_S128x1408 (ix2 p h) (ix2 p (Cert.GatedFfn.gateCol h)) (fun a => match a with
    | ⟨0, _⟩ => by show p.val = 0 + p.val; omega
    | ⟨1, _⟩ => by show h.val = 0 + h.val; omega)

/-- The linear half: column `h` of the slice is column `1408 + h` of the whole. -/
theorem up_half_apply (v : FVec Ideal S128x2816 .f32) (p : Fin 128) (h : Fin 1408) :
    extractStridedSlice S128x1408 ![0, 1408] v slices_S128x2816_o0_1408_S128x1408 (ix2 p h) = v (ix2 p (Cert.GatedFfn.upCol h)) :=
  extractStridedSlice_apply ![0, 1408] v slices_S128x2816_o0_1408_S128x1408 (ix2 p h) (ix2 p (Cert.GatedFfn.upCol h)) (fun a => match a with
    | ⟨0, _⟩ => by show p.val = 0 + p.val; omega
    | ⟨1, _⟩ => by show 1408 + h.val = 1408 + h.val; rfl)

/-! ## The tile's result -/

/-- `u(p, j)` of one tile: row `p` of the token tile against row `j` of the first weight block. -/
def hidden (a : Vec Ideal S128x2048 .bf16) (b : Vec Ideal S1x2816x2048 .bf16) (p : Fin 128) (j : Fin 2816) : EReal :=
  ∑ k : Fin 2048, a (ix2 p k) * b (ix3 0 j k)

/-- The first product of the body, on the token tile as loaded and the first weight block without its unit axis, at
    (p, j) is `u(p, j)`. -/
theorem hidden_apply (a : Vec Ideal S128x2048 .bf16) (b : Vec Ideal S1x2816x2048 .bf16) (p : Fin 128) (j : Fin 2816) :
    matmul (F := Ideal) (φ₁ := .bf16) (φ₂ := .bf16) dot_S128x2048_S2816x2048_S128x2816_1_1_0_0_n_n none (shapeCast S128x2048 a shapeCasts_S128x2048_S128x2048)
        (shapeCast S2816x2048 b shapeCasts_S1x2816x2048_S2816x2048) (constant (F := Ideal) S128x2816 .f32 0x00000000#32) (ix2 p j)
      = hidden a b p j := by
  rw [first_product]
  unfold hidden
  refine Finset.sum_congr rfl fun k _ => ?_
  rw [shapeCast_self, first_weights_apply]

/-- The logistic function of a tile, read at an index, is σ of the entry. -/
theorem logistic_apply (v : FVec Ideal S128x1408 .f32) (i : S128x1408.Idx) : logistic v i = Ideal.logistic (v i) := rfl

/-- Entry (p, q) of what the body stores: the gated row `p` against row `q` of the second weight block. -/
theorem result_apply (a : Vec Ideal S128x2048 .bf16) (b : Vec Ideal S1x2816x2048 .bf16) (c : Vec Ideal S1x2048x1408 .bf16)
    (p : Fin 128) (q : Fin 2048) :
    k0_pay1 (F := Ideal) a b c (ix2 p q)
      = ∑ h : Fin 1408, hidden a b p (Cert.GatedFfn.gateCol h) * Ideal.logistic (hidden a b p (Cert.GatedFfn.gateCol h))
          * hidden a b p (Cert.GatedFfn.upCol h) * c (ix3 0 q h) := by
  unfold k0_pay1
  rw [second_product]
  refine Finset.sum_congr rfl fun h _ => ?_
  rw [second_weights_apply, truncf_apply, mulf_apply, mulf_apply, logistic_apply, gate_half_apply, up_half_apply,
    hidden_apply, hidden_apply]

end Cert.KernelIdeal.Tile

end
-- ==== Proof.Whole.lean ====
/-
  From tiles to the whole result array.

  The grid has 8 × 16 = 128 points, point `t` standing for group `t / 16` and tile `t % 16` of that group. At point
  `t` the kernel reads token rows `128·t … 128·t + 127` (tile number `16·(t / 16) + t % 16 = t` of the flat array), the two
  weight matrices of group `t / 16`, and writes result rows `128·t … 128·t + 127`. The arrays the kernel reads are
  the arguments changed to a narrower float format, which on the extended reals is no change. Row `r = 128·t + p`
  belongs to group `r / 2048 = t / 16`, so a tile's entry (p, q) is `GatedFfn.out` at (r, q); every row lies in the
  tile `r / 128`, so the 128 tiles cover the array and it ends holding `GatedFfn.out` of the arguments.
-/
import proofs.«109220_j30537217475283_1_alg».proof.Proof.Gen.KernelIdeal.Value
import proofs.«109220_j30537217475283_1_alg».proof.Proof.Tile
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The three float arguments as launched: the tokens and the two stacks of weight matrices. -/
abbrev tokens (c : Dev nD) : S16384x2048.Idx → EReal := m ((c : Thread nD τ).loc main_arg0)
abbrev firstWeights (c : Dev nD) : S8x2816x2048.Idx → EReal := m ((c : Thread nD τ).loc main_arg1)
abbrev secondWeights (c : Dev nD) : S8x2048x1408.Idx → EReal := m ((c : Thread nD τ).loc main_arg2)

/-! ## The arrays the kernel reads are the arguments -/

theorem tokens_staged (c : Dev nD) : (V m c main_v0 : S16384x2048.Idx → EReal) = tokens m c := by
  dsimp only [V, hostOps0]; after_results; rfl
theorem firstWeights_staged (c : Dev nD) : (V m c main_v1 : S8x2816x2048.Idx → EReal) = firstWeights m c := by
  dsimp only [V, hostOps0]; after_results; rfl
theorem secondWeights_staged (c : Dev nD) : (V m c main_v2 : S8x2048x1408.Idx → EReal) = secondWeights m c := by
  dsimp only [V, hostOps0]; after_results; rfl

/-! ## Which blocks a point reads and writes -/

/-- The block indices at point `t`, decided over the 128 points: token tile `t`, weight matrices `t / 16`, result
    tile `t`. -/
theorem idx_facts : ∀ t : Fin cfg0.N,
    win0_0.index t (0 : Fin 2) = t.val ∧ win0_0.index t (1 : Fin 2) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Entry (p, k) of the token tile at point `t` is the tokens' entry (128·t + p, k). -/
theorem token_tile_apply (c : Dev nD) (t : Fin cfg0.N) (p : Fin 128) (k : Fin 2048) (r : Fin 16384)
    (hr : r.val = t.val * 128 + p.val) :
    (iblk m c 0 t : Vec Ideal S128x2048 .bf16) (ix2 p k) = tokens m c (ix2 r k) := by
  obtain ⟨e0, e1, -⟩ := idx_facts t
  unfold iblk
  rw [View.read_apply]
  show V m c main_v0 _ = _
  rw [tokens_staged]
  refine congrArg (tokens m c) (funext fun a => Fin.ext ?_)
  match a with
  | ⟨0, _⟩ => show win0_0.index t (0 : Fin 2) * 128 + 1 * p.val = r.val; omega
  | ⟨1, _⟩ => show win0_0.index t (1 : Fin 2) * 2048 + 1 * k.val = k.val; omega

/-- Entry (0, j, k) of the first weight block at point `t` is entry (t / 16, j, k) of the first weights. -/
theorem first_block_apply (c : Dev nD) (t : Fin cfg0.N) (j : Fin 2816) (k : Fin 2048) (e : Fin 8)
    (he : e.val = t.val / 16) :
    (iblk m c 1 t : Vec Ideal S1x2816x2048 .bf16) (ix3 0 j k) = firstWeights m c (ix3 e j k) := by
  obtain ⟨-, -, e0, e1, e2, -⟩ := idx_facts t
  unfold iblk
  rw [View.read_apply]
  show V m c main_v1 _ = _
  rw [firstWeights_staged]
  refine congrArg (firstWeights m c) (funext fun a => Fin.ext ?_)
  match a with
  | ⟨0, _⟩ => show win0_1.index t (0 : Fin 3) * 1 + 1 * (0 : Fin 1).val = e.val; simp only [Fin.val_zero]; omega
  | ⟨1, _⟩ => show win0_1.index t (1 : Fin 3) * 2816 + 1 * j.val = j.val; omega
  | ⟨2, _⟩ => show win0_1.index t (2 : Fin 3) * 2048 + 1 * k.val = k.val; omega

/-- Entry (0, q, h) of the second weight block at point `t` is entry (t / 16, q, h) of the second weights. -/
theorem second_block_apply (c : Dev nD) (t : Fin cfg0.N) (q : Fin 2048) (h : Fin 1408) (e : Fin 8)
    (he : e.val = t.val / 16) :
    (iblk m c 2 t : Vec Ideal S1x2048x1408 .bf16) (ix3 0 q h) = secondWeights m c (ix3 e q h) := by
  obtain ⟨-, -, -, -, -, e0, e1, e2, -⟩ := idx_facts t
  unfold iblk
  rw [View.read_apply]
  show V m c main_v2 _ = _
  rw [secondWeights_staged]
  refine congrArg (secondWeights m c) (funext fun a => Fin.ext ?_)
  match a with
  | ⟨0, _⟩ => show win0_2.index t (0 : Fin 3) * 1 + 1 * (0 : Fin 1).val = e.val; simp only [Fin.val_zero]; omega
  | ⟨1, _⟩ => show win0_2.index t (1 : Fin 3) * 2048 + 1 * q.val = q.val; omega
  | ⟨2, _⟩ => show win0_2.index t (2 : Fin 3) * 1408 + 1 * h.val = h.val; omega

/-- A tile's `u(p, j)` is the whole arrays' `u(r, j)` at row `r = 128·t + p`, whose group is `t / 16`. -/
theorem tile_hidden_eq (c : Dev nD) (t : Fin cfg0.N) (p : Fin 128) (j : Fin 2816) (r : Fin 16384)
    (hr : r.val = t.val * 128 + p.val) :
    Tile.hidden (iblk m c 0 t) (iblk m c 1 t) p j = Cert.GatedFfn.hidden (tokens m c) (firstWeights m c) r j := by
  unfold Tile.hidden Cert.GatedFfn.hidden
  refine Finset.sum_congr rfl fun k _ => ?_
  rw [token_tile_apply m c t p k r hr,
    first_block_apply m c t j k (Cert.GatedFfn.group r) (by show r.val / 2048 = t.val / 16; have := p.isLt; omega)]

/-! ## What a point writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- Point `t` writes back block `t` of `GatedFfn.out` of the arguments. -/
theorem flushed_eq (c : Dev nD) (t : Fin cfg0.N) :
    (dats m 0 c).flushed 3 t
      = ((cfg0.win 3).blk t).view.read (Elt Ideal) (Cert.GatedFfn.out (tokens m c) (firstWeights m c) (secondWeights m c)) := by
  rw [flushed3]
  unfold out0_3
  rw [View.canon_unit_zero hz2]
  simp only [View.ld_unit_zero (S := S128x2048) hz2, View.ld_unit_zero (S := S1x2816x2048) hz3,
    View.ld_unit_zero (S := S1x2048x1408) hz3]
  obtain ⟨-, -, -, -, -, -, -, -, e0, e1⟩ := idx_facts t
  have hN : cfg0.N = 128 := N_0
  have ht : t.val < 128 := hN ▸ t.isLt
  funext j
  obtain ⟨p, q, rfl⟩ : ∃ (p : Fin 128) (q : Fin 2048), j = ix2 p q := ⟨j 0, j 1, eq_ix2 j⟩
  have hp : p.val < 128 := p.isLt
  have hrow : t.val * 128 + p.val < 16384 := by omega
  show k0_pay1 (F := Ideal) (iblk m c 0 t) (iblk m c 1 t) (iblk m c 2 t) (ix2 p q)
    = Cert.GatedFfn.out (tokens m c) (firstWeights m c) (secondWeights m c) (((cfg0.win 3).blk t).view.emb (ix2 p q))
  refine (Tile.result_apply (iblk m c 0 t) (iblk m c 1 t) (iblk m c 2 t) p q).trans ?_
  have hemb : ((cfg0.win 3).blk t).view.emb (ix2 p q) = ix2 (⟨t.val * 128 + p.val, hrow⟩ : Fin 16384) q :=
    funext fun a => Fin.ext (by
      match a with
      | ⟨0, _⟩ => show win0_3.index t (0 : Fin 2) * 128 + 1 * p.val = t.val * 128 + p.val; omega
      | ⟨1, _⟩ => show win0_3.index t (1 : Fin 2) * 2048 + 1 * q.val = q.val; omega)
  rw [hemb]
  unfold Cert.GatedFfn.out Cert.GatedFfn.gated
  refine Finset.sum_congr rfl fun h _ => ?_
  rw [tile_hidden_eq m c t p (Cert.GatedFfn.gateCol h) ⟨t.val * 128 + p.val, hrow⟩ rfl,
    tile_hidden_eq m c t p (Cert.GatedFfn.upCol h) ⟨t.val * 128 + p.val, hrow⟩ rfl,
    second_block_apply m c t q h (Cert.GatedFfn.group ⟨t.val * 128 + p.val, hrow⟩)
      (by show (t.val * 128 + p.val) / 2048 = t.val / 16; omega)]

/-! ## The tiles cover the array -/

/-- An index of the result array is in point `t`'s block iff each coordinate is in the block's range on its axis. -/
theorem mem_blk (t : Fin cfg0.N) (i : S16384x2048.Idx) :
    i ∈ ((cfg0.win 3).blk t).view.set ↔ ∀ a : Fin 2, win0_3.index t a * S128x2048.size a ≤ (i a).val
      ∧ (i a).val < win0_3.index t a * S128x2048.size a + S128x2048.size a := by
  show i ∈ ((View.whole main_v3).slice (win0_3.rect t)).set ↔ _
  rw [View.set_slice_whole, Rect.mem_set_unit]
  exact Iff.rfl

/-- Row `r` lies in the tile of point `r / 128`, which writes back. -/
theorem covered (i : S16384x2048.Idx) :
    ∃ t : Fin cfg0.N, (cfg0.win 3).flush t = true ∧ i ∈ ((cfg0.win 3).blk t).view.set := by
  have hN : cfg0.N = 128 := N_0
  have hi0 : (i 0).val < 16384 := (i 0).isLt
  have hi1 : (i 1).val < 2048 := (i 1).isLt
  obtain ⟨t, ht⟩ : ∃ t : Fin cfg0.N, t.val = (i 0).val / 128 := ⟨⟨(i 0).val / 128, by rw [hN]; omega⟩, rfl⟩
  obtain ⟨-, -, -, -, -, -, -, -, e0, e1⟩ := idx_facts t
  refine ⟨t, flush0_3 t, ?_⟩
  rw [mem_blk]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 2048 ≤ (i 1).val ∧ (i 1).val < win0_3.index t (1 : Fin 2) * 2048 + 2048
    omega

/-! ## The result array after the run -/

theorem final (c : Dev nD) :
    (dats m 0 c).arrAt 3 cfg0.N = Cert.GatedFfn.out (tokens m c) (firstWeights m c) (secondWeights m c) :=
  (dats m 0 c).arrAt_eq_of_cover 3 _ (fun t _ => flushed_eq m c t) covered

/-- Every weakly fair execution of the kernel's program ends with the result array at `GatedFfn.out` of the arguments
    and the arguments as launched. -/
theorem run : θ_run defs (onTc (τ := τ) (main (F := Ideal))) ⟨m, fun _ => 0, ρ⟩ fun r => ∀ c : Dev nD,
      r.2.mem ((c : Thread nD τ).loc main_v3) = Cert.GatedFfn.out (tokens m c) (firstWeights m c) (secondWeights m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.lean ====
/-
  The certificate: a fused two-layer gated feed-forward over eight token groups, tiled kernel against the grouped
  einsum reference.

  Both programs take 16384 token rows in eight groups of 2048 and, for the group's own weights, compute
  `out(r, d) = Σ_h u(r, h) · σ(u(r, h)) · u(r, 1408 + h) · w2(e, d, h)` with `u(r, j) = Σ_k x(r, k) · w13(e, j, k)`,
  `e = r / 2048` and σ the logistic function (`Cert.GatedFfn.out`). The kernel does so one tile of 128 rows at a
  time over a grid of 8 × 16 points, on copies of the arguments in a narrower float format; the reference does so
  on the arrays regrouped as [8, 2048, ·]. At the extended reals a change of float format is the identity, the
  products are plain sums over the contracted coordinate, and the reference's `1 / (1 + e^(-u))` is σ's definition:
  the two results are the same function of the arguments, index by index, whatever the (finite or infinite) inputs.

  The three frames are the generated ones (the reference's is its generated run with the result dropped); the
  kernel's idealization rewrote nothing, so `preserves` is `True`; the value claim sets the kernel's run, read as
  `GatedFfn.out` of the arguments (Proof/Tile.lean for one tile, Proof/Whole.lean for the array), beside the
  reference's generated run, read as the same function (Proof/RefOut.lean).
-/
import proofs.«109220_j30537217475283_1_alg».proof.Defs
import proofs.«109220_j30537217475283_1_alg».proof.Proof.Gen.Kernel
import proofs.«109220_j30537217475283_1_alg».proof.Proof.Gen.Kernel.Skeleton
import proofs.«109220_j30537217475283_1_alg».proof.Proof.Gen.Kernel.Launch
import proofs.«109220_j30537217475283_1_alg».proof.Proof.Gen.Kernel.Points
import proofs.«109220_j30537217475283_1_alg».proof.Proof.Gen.Kernel.Frame
import proofs.«109220_j30537217475283_1_alg».proof.Proof.Gen.KernelIdeal
import proofs.«109220_j30537217475283_1_alg».proof.Proof.Gen.KernelIdeal.Skeleton
import proofs.«109220_j30537217475283_1_alg».proof.Proof.Gen.KernelIdeal.Launch
import proofs.«109220_j30537217475283_1_alg».proof.Proof.Gen.KernelIdeal.Points
import proofs.«109220_j30537217475283_1_alg».proof.Proof.Gen.KernelIdeal.Frame
import proofs.«109220_j30537217475283_1_alg».proof.Proof.Gen.ReferenceIdeal
import proofs.«109220_j30537217475283_1_alg».proof.Proof.Gen.Pre_finite_inputs
import proofs.«109220_j30537217475283_1_alg».proof.Proof.Gen.KernelIdeal.Value
import proofs.«109220_j30537217475283_1_alg».proof.Proof.Gen.ReferenceIdeal.Run
import proofs.«109220_j30537217475283_1_alg».proof.Proof.Gen.ReferenceIdeal.Read
import proofs.«109220_j30537217475283_1_alg».proof.Proof.RefOut
import proofs.«109220_j30537217475283_1_alg».proof.Proof.Whole
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments the kernel's result array ends at `GatedFfn.out` of its arguments and
    the reference's at `GatedFfn.out` of its own, which are the same arrays. -/
theorem algebraic : Cert.algebraic_KernelIdeal_ReferenceIdeal := by
  intro m ρ m' ρ' _ hagree
  refine ⟨fun c => Cert.GatedFfn.out (Cert.KernelIdeal.Whole.tokens m c) (Cert.KernelIdeal.Whole.firstWeights m c)
    (Cert.KernelIdeal.Whole.secondWeights m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
